-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S16384x1 : Shape := ⟨2, ![16384, 1]⟩
abbrev S512x3 : Shape := ⟨2, ![512, 3]⟩
abbrev S512x1 : Shape := ⟨2, ![512, 1]⟩
abbrev S3x2048 : Shape := ⟨2, ![3, 2048]⟩
abbrev S1x2048 : Shape := ⟨2, ![1, 2048]⟩
abbrev S512x2048 : Shape := ⟨2, ![512, 2048]⟩
abbrev S512 : Shape := ⟨1, ![512]⟩
abbrev S16384 : Shape := ⟨1, ![16384]⟩
abbrev S_ : Shape := ⟨0, ![]⟩

abbrev nBuf : Space → Nat
  | .hbm => 23
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S3x16384, .f32⟩
  | .hbm, ⟨4, _⟩ => ⟨S16384x1, .f32⟩
  | .hbm, ⟨5, _⟩ => ⟨S16384, .f32⟩
  | .hbm, ⟨6, _⟩ => ⟨S16384x1, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x16384, .f32⟩
  | .local _ .vmem, ⟨3, _⟩ => ⟨S512x1, .f32⟩
  | .local _ .vmem, ⟨4, _⟩ => ⟨S512x1, .f32⟩
  | .local _ .vmem, ⟨5, _⟩ => ⟨S512x3, .f32⟩
  | .local _ .vmem, ⟨6, _⟩ => ⟨S512x3, .f32⟩
  | .local _ .vmem, ⟨7, _⟩ => ⟨S3x16384, .f32⟩
  | .local _ .vmem, ⟨8, _⟩ => ⟨S512x1, .f32⟩
  | .local _ .vmem, ⟨9, _⟩ => ⟨S512x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v5 : BitVec 32 := Scalar.muli c0_i32 c2048_i32
  v5
def k0_off1 (c0_i32 : BitVec 32) : Fin 2 → Nat :=
  let c0_1 : Index := 0#32
  let c2048_i32 : BitVec 32 := 2048#32
  let v5 : BitVec 32 := Scalar.muli c0_i32 c2048_i32
  let v6 : BitVec 32 := v5
  let v7 : Index := Scalar.indexCast v6
  ![0, v7.toNat]
def k0_mult2 : BitVec 32 :=
  let c1_i32 : BitVec 32 := 1#32
  let c2048_i32_3 : BitVec 32 := 2048#32
  let v30 : BitVec 32 := Scalar.muli c1_i32 c2048_i32_3
  v30
def k0_mult3 : BitVec 32 :=
  let c2_i32 : BitVec 32 := 2#32
  let c2048_i32_6 : BitVec 32 := 2048#32
  let v55 : BitVec 32 := Scalar.muli c2_i32 c2048_i32_6
  v55
def k0_mult4 : BitVec 32 :=
  let c3_i32 : BitVec 32 := 3#32
  let c2048_i32_9 : BitVec 32 := 2048#32
  let v80 : BitVec 32 := Scalar.muli c3_i32 c2048_i32_9
  v80
def k0_mult5 : BitVec 32 :=
  let c4_i32 : BitVec 32 := 4#32
  let c2048_i32_12 : BitVec 32 := 2048#32
  let v105 : BitVec 32 := Scalar.muli c4_i32 c2048_i32_12
  v105
def k0_mult6 : BitVec 32 :=
  let c5_i32 : BitVec 32 := 5#32
  let c2048_i32_15 : BitVec 32 := 2048#32
  let v130 : BitVec 32 := Scalar.muli c5_i32 c2048_i32_15
  v130
def k0_mult7 : BitVec 32 :=
  let c6_i32 : BitVec 32 := 6#32
  let c2048_i32_18 : BitVec 32 := 2048#32
  let v155 : BitVec 32 := Scalar.muli c6_i32 c2048_i32_18
  v155
def k0_mult8 : BitVec 32 :=
  let c7_i32 : BitVec 32 := 7#32
  let c2048_i32_21 : BitVec 32 := 2048#32
  let v180 : BitVec 32 := Scalar.muli c7_i32 c2048_i32_21
  v180
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_mult1 : BitVec 32 :=
  let c0_i32 : BitVec 32 := 0#32
  let c2048_i32 : BitVec 32 := 2048#32
  let v5 : BitVec 32 := Scalar.muli c0_i32 c2048_i32
  v5
def k1_off1 (c0_i32 : BitVec 32) : Fin 2 → Nat :=
  let c0_1 : Index := 0#32
  let c2048_i32 : BitVec 32 := 2048#32
  let v5 : BitVec 32 := Scalar.muli c0_i32 c2048_i32
  let v6 : BitVec 32 := v5
  let v7 : Index := Scalar.indexCast v6
  ![0, v7.toNat]
def k1_mult2 : BitVec 32 :=
  let c1_i32 : BitVec 32 := 1#32
  let c2048_i32_3 : BitVec 32 := 2048#32
  let v30 : BitVec 32 := Scalar.muli c1_i32 c2048_i32_3
  v30
def k1_mult3 : BitVec 32 :=
  let c2_i32 : BitVec 32 := 2#32
  let c2048_i32_6 : BitVec 32 := 2048#32
  let v55 : BitVec 32 := Scalar.muli c2_i32 c2048_i32_6
  v55
def k1_mult4 : BitVec 32 :=
  let c3_i32 : BitVec 32 := 3#32
  let c2048_i32_9 : BitVec 32 := 2048#32
  let v80 : BitVec 32 := Scalar.muli c3_i32 c2048_i32_9
  v80
def k1_mult5 : BitVec 32 :=
  let c4_i32 : BitVec 32 := 4#32
  let c2048_i32_12 : BitVec 32 := 2048#32
  let v105 : BitVec 32 := Scalar.muli c4_i32 c2048_i32_12
  v105
def k1_mult6 : BitVec 32 :=
  let c5_i32 : BitVec 32 := 5#32
  let c2048_i32_15 : BitVec 32 := 2048#32
  let v130 : BitVec 32 := Scalar.muli c5_i32 c2048_i32_15
  v130
def k1_mult7 : BitVec 32 :=
  let c6_i32 : BitVec 32 := 6#32
  let c2048_i32_18 : BitVec 32 := 2048#32
  let v155 : BitVec 32 := Scalar.muli c6_i32 c2048_i32_18
  v155
def k1_mult8 : BitVec 32 :=
  let c7_i32 : BitVec 32 := 7#32
  let c2048_i32_21 : BitVec 32 := 2048#32
  let v180 : BitVec 32 := Scalar.muli c7_i32 c2048_i32_21
  v180
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S16384x3_S3x16384_1_0 : S16384x3.Transposes [1, 0] S3x16384
  inb_S512x3_S512x3_0_0 : ∀ a, (![0, 0] : Fin 2 → Nat) a + S512x3.size a ≤ S512x3.size a
  h_S512x3 : 0 < S512x3.numel
  slices_S512x3_o0_0_S512x1 : S512x3.Slices ![0, 0] S512x1
  slices_S512x3_o0_1_S512x1 : S512x3.Slices ![0, 1] S512x1
  slices_S512x3_o0_2_S512x1 : S512x3.Slices ![0, 2] S512x1
  h_S3x2048 : 0 < S3x2048.numel
  shapeCasts_S3x2048_S3x2048 : S3x2048.ShapeCasts S3x2048
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  reducesTo_S16384_S_d0 : S16384.ReducesTo [0] S_
  h_S_ : 0 < S_.numel
  hrank0 : 0 < grid0.rank
  k0_mult1_dvd : 2048 ∣ k0_mult1.toNat
  k0_off1_inb : ∀ (r : Fin 8), ∀ a, (k0_off1 (BitVec.ofNat 32 r.val)) a + S3x2048.size a ≤ S3x16384.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S16384x3.size a
  hwx0_0 : ∀ i : grid0.Coords, EltTy.bits .f32 = 32 ∨ (Rect.block (s := S16384x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hrank1 : 0 < grid1.rank
  k1_mult1_dvd : 2048 ∣ k1_mult1.toNat
  k1_off1_inb : ∀ (r : Fin 8), ∀ a, (k1_off1 (BitVec.ofNat 32 r.val)) a + S3x2048.size a ≤ S3x16384.size a
  k1_mult2_dvd : 2048 ∣ k1_mult2.toNat
  k1_mult3_dvd : 2048 ∣ k1_mult3.toNat
  k1_mult4_dvd : 2048 ∣ k1_mult4.toNat
  k1_mult5_dvd : 2048 ∣ k1_mult5.toNat
  k1_mult6_dvd : 2048 ∣ k1_mult6.toNat
  k1_mult7_dvd : 2048 ∣ k1_mult7.toNat
  k1_mult8_dvd : 2048 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S16384x3.size a
  hwx1_0 : ∀ i : grid1.Coords, EltTy.bits .f32 = 32 ∨ (Rect.block (s := S16384x3) S512x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x16384.size a ≤ S3x16384.size a
  hwx1_1 : ∀ i : grid1.Coords, EltTy.bits .f32 = 32 ∨ (Rect.block (s := S3x16384) S3x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)

variable [Facts₀]

abbrev win0_0 : Pipeline.Window sig grid0 :=
  Pipeline.Window.ofSpec (Memref.whole main_arg1) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S3x16384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S3x16384, .f32⟩
  | .hbm, ⟨9, _⟩ => ⟨S16384x16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x3, .f32⟩
  | .hbm, ⟨25, _⟩ => ⟨S_, .f32⟩
  | .hbm, ⟨26, _⟩ => ⟨S16384, .f32⟩
  | .hbm, ⟨27, _⟩ => ⟨S16384x3, .f32⟩
  | .hbm, ⟨28, _⟩ => ⟨S_, .f32⟩
  | .hbm, ⟨29, _⟩ => ⟨S16384, .f32⟩
  | .hbm, ⟨30, _⟩ => ⟨S3x16384, .f32⟩
  | .hbm, ⟨31, _⟩ => ⟨S16384x16384, .f32⟩
  | .hbm, ⟨32, _⟩ => ⟨S16384x1, .f32⟩
  | .hbm, ⟨33, _⟩ => ⟨S1x16384, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_cst_14 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Spec.lean ====
/-
  The mathematics both programs share: nearest-neighbour squared distances between two clouds of
  points in three dimensions, over the extended reals.

  * `sqd a b` is the squared distance written as a sum of three squared differences,
    ((a₀ - b₀)² + (a₁ - b₁)²) + (a₂ - b₂)²;
  * `expd a b` is its expansion (|a|² + |b|²) - 2·⟨a, b⟩, each sum started from 0.
  On REAL coordinates the two agree (`expd_eq_sqd`: expand the squares). At an infinite
  coordinate they need not (∞ - ∞ is ⊥ in the extended reals), which is why the certificate's
  precondition that the inputs are finite is used.

  A minimum over 16384 candidates taken as a running minimum, started at ⊤, over eight
  consecutive chunks of 2048 candidates is the minimum over all of them (`min8_eq_iInf`,
  `iInf_chunks`), and a fold of `min` from ⊤ over a finite index type is the infimum
  (`fold_min_top`).

  `lossOf d1 d2` is what both programs do with the two vectors of clamped nearest squared
  distances: (mean √d1 + mean √d2) · ½ · 10.
-/
import Idealize.ShloMosaic.PureOps.Ideal
import Idealize.ShloMosaic.PureOps.Ideal.Laws
import Idealize.ShloMosaic.Lib.ValueIdx

noncomputable section

namespace NearestSq

open Idealize.ShloMosaic

/-- Squared distance of two points of ℝ³ (extended), as a sum of three squared differences. -/
def sqd (a b : Fin 3 → EReal) : EReal :=
  (a 0 - b 0) * (a 0 - b 0) + (a 1 - b 1) * (a 1 - b 1) + (a 2 - b 2) * (a 2 - b 2)

/-- The same distance expanded: (|a|² + |b|²) - 2·⟨a, b⟩, each sum started from zero. -/
def expd (a b : Fin 3 → EReal) : EReal :=
  (0 + ∑ k, a k * a k) + (0 + ∑ k, b k * b k) - 2 * ∑ k, a k * b k

/-- On real coordinates the expansion is the sum of squared differences. -/
theorem expd_eq_sqd (a b : Fin 3 → ℝ) :
    expd (fun k => (a k : EReal)) (fun k => (b k : EReal)) = sqd (fun k => (a k : EReal)) (fun k => (b k : EReal)) := by
  simp only [expd, sqd, Fin.sum_univ_three]
  have h2 : (2 : EReal) = ((2 : ℝ) : EReal) := rfl
  rw [h2]
  simp only [← EReal.coe_mul, ← EReal.coe_add, ← EReal.coe_sub, ← EReal.coe_zero]
  exact congrArg _ (by ring)

/-- The nearest squared distance, clamped below at zero. -/
def nearest {n : Nat} (d : Fin n → EReal) : EReal := max (⨅ j, d j) 0

/-- A running minimum from ⊤ over eight values is their infimum. -/
theorem min8_eq_iInf (f : Fin 8 → EReal) :
    min (min (min (min (min (min (min (min ⊤ (f 0)) (f 1)) (f 2)) (f 3)) (f 4)) (f 5)) (f 6)) (f 7) = ⨅ c, f c := by
  refine le_antisymm (le_iInf fun c => ?_) ?_
  · fin_cases c <;> simp [min_le_iff]
  · simp only [le_min_iff, le_top, true_and]
    exact ⟨⟨⟨⟨⟨⟨⟨iInf_le f 0, iInf_le f 1⟩, iInf_le f 2⟩, iInf_le f 3⟩, iInf_le f 4⟩, iInf_le f 5⟩, iInf_le f 6⟩, iInf_le f 7⟩

/-- The infimum over 16384 candidates is the infimum over eight chunks of the infimum over each chunk's 2048. -/
theorem iInf_chunks (d : Fin 16384 → EReal) :
    (⨅ c : Fin 8, ⨅ k : Fin 2048, d ⟨2048 * c.val + k.val, by omega⟩) = ⨅ j, d j := by
  refine le_antisymm (le_iInf fun j => ?_) (le_iInf fun c => le_iInf fun k => iInf_le d _)
  refine (iInf_le _ (⟨j.val / 2048, by omega⟩ : Fin 8)).trans ((iInf_le _ (⟨j.val % 2048, by omega⟩ : Fin 2048)).trans (le_of_eq ?_))
  exact congrArg d (Fin.ext (by show 2048 * (j.val / 2048) + j.val % 2048 = j.val; omega))

/-- A fold of `min` from ⊤ over a whole finite index type is the infimum. -/
theorem fold_min_top {n : Nat} (f : Fin n → EReal) : (Finset.univ : Finset (Fin n)).fold min ⊤ f = ⨅ j, f j := by
  refine le_antisymm (le_iInf fun j => ?_) ?_
  · exact (Finset.fold_min_le _).mpr (Or.inr ⟨j, Finset.mem_univ _, le_refl _⟩)
  · exact (Finset.le_fold_min _).mpr ⟨le_top, fun j _ => iInf_le f j⟩

/-- The f32 word of +∞ is ⊤. -/
theorem ofBits_inf : Ideal.ofBits .f32 0x7F800000#32 = (⊤ : EReal) := by
  simp [Ideal.ofBits, Ideal.ieee]

/-- The f32 word of 2.0 is 2. -/
theorem ofBits_two : Ideal.ofBits .f32 0x40000000#32 = (2 : EReal) := by
  rw [show (2 : EReal) = ((2 : ℝ) : EReal) from rfl]
  simp [Ideal.ofBits, Ideal.ieee, -EReal.coe_mul]; norm_num

/-! ## What both programs do with the two distance vectors -/

abbrev Vec16384 : Shape := ⟨1, ![16384]⟩
abbrev Scal : Shape := ⟨0, ![]⟩

/-- (mean √d1 + mean √d2) · ½ · 10, in the host operations both programs print: a square root, a sum from
    zero, a division by 16384, an addition, two products with the constants ½ and 10. -/
def lossOf (hr : Vec16384.ReducesTo [0] Scal) (hs : 0 < Scal.numel) (d1 d2 : FVec Ideal Vec16384 .f32) : FVec Ideal Scal .f32 :=
  mulf (mulf (addf
      (Host.divf (Host.reduceAdd (Host.sqrt d1) (constant (F := Ideal) Scal .f32 0x00000000#32) hr hs) (constant (F := Ideal) Scal .f32 0x46800000#32))
      (Host.divf (Host.reduceAdd (Host.sqrt d2) (constant (F := Ideal) Scal .f32 0x00000000#32) hr hs) (constant (F := Ideal) Scal .f32 0x46800000#32)))
    (constant (F := Ideal) Scal .f32 0x3F000000#32)) (constant (F := Ideal) Scal .f32 0x41200000#32)

end NearestSq

end
-- ==== Proof.Body.lean ====
/-
  One grid point of either kernel, as a function of the block of 512 points `x` it is given and of the
  eight chunks `B c` of 2048 points (stored coordinate-major, [3, 2048]) it loads: for every point of the
  block, the running minimum — from +∞, chunk after chunk — of the lane minimum of the squared distances
  ((a₀ - b₀)² + (a₁ - b₁)²) + (a₂ - b₂)² to the chunk's points, clamped below at zero (`stored`).

  At the extended reals that is, for point `r` of the block, `max (⨅ c, ⨅ j, sqd (x r) (B c j)) 0`
  (`stored_apply`): a lane minimum from +∞ is an infimum over the lane axis, and the running minimum over
  the eight chunks is the infimum over them.
-/
import proofs.«165211_j72258529788766_1_alg».proof.KernelIdeal
import proofs.«165211_j72258529788766_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Idealize.ShloMosaic Idealize.ShloMosaic.TcCoe Idealize.ShloMosaic.ValueIdx NearestSq
open Facts₀

variable [Facts]

section AnyFloat
variable {F : FTy → Type} [FloatOps F]

/-- Coordinate 0 of the block's points, as a column. -/
def col0 (x : Vec F S512x3 .f32) : FVec F S512x1 .f32 := extractStridedSlice S512x1 ![0, 0] x slices_S512x3_o0_0_S512x1
/-- Coordinate 1. -/
def col1 (x : Vec F S512x3 .f32) : FVec F S512x1 .f32 := extractStridedSlice S512x1 ![0, 1] x slices_S512x3_o0_1_S512x1
/-- Coordinate 2. -/
def col2 (x : Vec F S512x3 .f32) : FVec F S512x1 .f32 := extractStridedSlice S512x1 ![0, 2] x slices_S512x3_o0_2_S512x1

/-- Coordinate 0 of a chunk's points, as a row. -/
def row0 (B : Vec F S3x2048 .f32) : FVec F S1x2048 .f32 :=
  extractStridedSlice S1x2048 ![0, 0] (shapeCast S3x2048 B shapeCasts_S3x2048_S3x2048) slices_S3x2048_o0_0_S1x2048
/-- Coordinate 1. -/
def row1 (B : Vec F S3x2048 .f32) : FVec F S1x2048 .f32 :=
  extractStridedSlice S1x2048 ![1, 0] (shapeCast S3x2048 B shapeCasts_S3x2048_S3x2048) slices_S3x2048_o1_0_S1x2048
/-- Coordinate 2. -/
def row2 (B : Vec F S3x2048 .f32) : FVec F S1x2048 .f32 :=
  extractStridedSlice S1x2048 ![2, 0] (shapeCast S3x2048 B shapeCasts_S3x2048_S3x2048) slices_S3x2048_o2_0_S1x2048

/-- The difference of one coordinate, every point of the block against every point of the chunk. -/
def diff (p : FVec F S512x1 .f32) (q : FVec F S1x2048 .f32) : FVec F S512x2048 .f32 :=
  subf (broadcastTo S512x2048 p broadcasts_S512x1_S512x2048) (broadcastTo S512x2048 q broadcasts_S1x2048_S512x2048)

/-- The squared distances of the block's 512 points to a chunk's 2048 points. -/
def sqdBlock (p0 p1 p2 : FVec F S512x1 .f32) (B : Vec F S3x2048 .f32) : FVec F S512x2048 .f32 :=
  addf (addf (mulf (diff p0 (row0 B)) (diff p0 (row0 B))) (mulf (diff p1 (row1 B)) (diff p1 (row1 B))))
    (mulf (diff p2 (row2 B)) (diff p2 (row2 B)))

/-- For each point of the block, the least squared distance to a point of the chunk (a lane minimum from +∞),
    as a column. -/
def chunkMin (p0 p1 p2 : FVec F S512x1 .f32) (B : Vec F S3x2048 .f32) : FVec F S512x1 .f32 :=
  shapeCast S512x1
    (multiReduction .minimumf [1] S512 (sqdBlock p0 p1 p2 B) 0x7F800000#32 reduces_S512x2048_S512 (.inl rfl) rfl)
    shapeCasts_S512_S512x1

/-- What a grid point stores: the running minimum from +∞ over the eight chunks, clamped below at zero. -/
def stored (x : Vec F S512x3 .f32) (B0 B1 B2 B3 B4 B5 B6 B7 : Vec F S3x2048 .f32) : FVec F S512x1 .f32 :=
  maximumf
    (minimumf (minimumf (minimumf (minimumf (minimumf (minimumf (minimumf (minimumf
      (broadcast S512x1 (Scalar.ofBits .f32 0x7F800000#32))
      (chunkMin (col0 x) (col1 x) (col2 x) B0)) (chunkMin (col0 x) (col1 x) (col2 x) B1))
      (chunkMin (col0 x) (col1 x) (col2 x) B2)) (chunkMin (col0 x) (col1 x) (col2 x) B3))
      (chunkMin (col0 x) (col1 x) (col2 x) B4)) (chunkMin (col0 x) (col1 x) (col2 x) B5))
      (chunkMin (col0 x) (col1 x) (col2 x) B6)) (chunkMin (col0 x) (col1 x) (col2 x) B7))
    (broadcast S512x1 (Scalar.ofBits .f32 0x00000000#32))

end AnyFloat

/-! ## Read at an index, at the extended reals -/

section Layout
variable {α : Type}

theorem col0_apply (x : S512x3.Idx → α) (r : Fin 512) :
    extractStridedSlice S512x1 ![0, 0] x slices_S512x3_o0_0_S512x1 (ix2 r 0) = x (ix2 r 0) :=
  extractStridedSlice_apply _ x _ (ix2 r 0) (ix2 r 0) (fun a => by
    match a with
    | ⟨0, _⟩ => show r.val = 0 + r.val; omega
    | ⟨1, _⟩ => rfl)

theorem col1_apply (x : S512x3.Idx → α) (r : Fin 512) :
    extractStridedSlice S512x1 ![0, 1] x slices_S512x3_o0_1_S512x1 (ix2 r 0) = x (ix2 r 1) :=
  extractStridedSlice_apply _ x _ (ix2 r 0) (ix2 r 1) (fun a => by
    match a with
    | ⟨0, _⟩ => show r.val = 0 + r.val; omega
    | ⟨1, _⟩ => rfl)

theorem col2_apply (x : S512x3.Idx → α) (r : Fin 512) :
    extractStridedSlice S512x1 ![0, 2] x slices_S512x3_o0_2_S512x1 (ix2 r 0) = x (ix2 r 2) :=
  extractStridedSlice_apply _ x _ (ix2 r 0) (ix2 r 2) (fun a => by
    match a with
    | ⟨0, _⟩ => show r.val = 0 + r.val; omega
    | ⟨1, _⟩ => rfl)

theorem row0_apply (y : S3x2048.Idx → α) (j : Fin 2048) :
    extractStridedSlice S1x2048 ![0, 0] y slices_S3x2048_o0_0_S1x2048 (ix2 0 j) = y (ix2 0 j) :=
  extractStridedSlice_apply _ y _ (ix2 0 j) (ix2 0 j) (fun a => by
    match a with
    | ⟨0, _⟩ => rfl
    | ⟨1, _⟩ => show j.val = 0 + j.val; omega)

theorem row1_apply (y : S3x2048.Idx → α) (j : Fin 2048) :
    extractStridedSlice S1x2048 ![1, 0] y slices_S3x2048_o1_0_S1x2048 (ix2 0 j) = y (ix2 1 j) :=
  extractStridedSlice_apply _ y _ (ix2 0 j) (ix2 1 j) (fun a => by
    match a with
    | ⟨0, _⟩ => rfl
    | ⟨1, _⟩ => show j.val = 0 + j.val; omega)

theorem row2_apply (y : S3x2048.Idx → α) (j : Fin 2048) :
    extractStridedSlice S1x2048 ![2, 0] y slices_S3x2048_o2_0_S1x2048 (ix2 0 j) = y (ix2 2 j) :=
  extractStridedSlice_apply _ y _ (ix2 0 j) (ix2 2 j) (fun a => by
    match a with
    | ⟨0, _⟩ => rfl
    | ⟨1, _⟩ => show j.val = 0 + j.val; omega)

/-- A column broadcast along the lanes reads the column at the row. -/
theorem bcast_col_apply (p : S512x1.Idx → α) (r : Fin 512) (j : Fin 2048) :
    broadcastTo S512x2048 p broadcasts_S512x1_S512x2048 (ix2 r j) = p (ix2 r 0) :=
  broadcastTo_apply p _ (ix2 r j) (ix2 r 0) (fun a => by
    match a with
    | ⟨0, _⟩ => rfl
    | ⟨1, _⟩ => rfl)

/-- A row broadcast down the sublanes reads the row at the lane. -/
theorem bcast_row_apply (q : S1x2048.Idx → α) (r : Fin 512) (j : Fin 2048) :
    broadcastTo S512x2048 q broadcasts_S1x2048_S512x2048 (ix2 r j) = q (ix2 0 j) :=
  broadcastTo_apply q _ (ix2 r j) (ix2 0 j) (fun a => by
    match a with
    | ⟨0, _⟩ => rfl
    | ⟨1, _⟩ => rfl)

/-- A vector cast to a column reads the vector at the row. -/
theorem cast_col_apply (v : S512.Idx → α) (r : Fin 512) :
    shapeCast S512x1 v shapeCasts_S512_S512x1 (ix2 r 0) = v (ix1 r) :=
  shapeCast_apply v _ (ix2 r 0) (ix1 r) (by
    rw [Shape.rowMajor_val_one, Shape.rowMajor_val_two]
    show r.val = r.val * 1 + 0
    omega)

end Layout

/-- The squared distances, read at a point of the block and a point of the chunk. -/
theorem sqdBlock_apply (p0 p1 p2 : FVec Ideal S512x1 .f32) (B : Vec Ideal S3x2048 .f32) (r : Fin 512) (j : Fin 2048) :
    sqdBlock p0 p1 p2 B (ix2 r j)
      = sqd ![p0 (ix2 r 0), p1 (ix2 r 0), p2 (ix2 r 0)] (fun k => B (ix2 k j)) := by
  unfold sqdBlock diff row0 row1 row2
  simp only [addf_apply, mulf_apply, subf_apply, bcast_col_apply, bcast_row_apply, shapeCast_self,
    row0_apply, row1_apply, row2_apply]
  rfl

/-- The lane minimum from +∞ is the infimum over the chunk's points. -/
theorem chunkMin_apply (p0 p1 p2 : FVec Ideal S512x1 .f32) (B : Vec Ideal S3x2048 .f32) (r : Fin 512) :
    chunkMin p0 p1 p2 B (ix2 r 0)
      = ⨅ j : Fin 2048, sqd ![p0 (ix2 r 0), p1 (ix2 r 0), p2 (ix2 r 0)] (fun k => B (ix2 k j)) := by
  have key : ∀ j : Fin 2048, sqdBlock p0 p1 p2 B (reduces_S512x2048_S512.lift (ix1 r) j)
      = sqd ![p0 (ix2 r 0), p1 (ix2 r 0), p2 (ix2 r 0)] (fun k => B (ix2 k j)) := fun j => by
    have e : reduces_S512x2048_S512.lift (ix1 r) j = ix2 r j := funext fun a => Fin.ext (by
      match a with
      | ⟨0, _⟩ => rfl
      | ⟨1, _⟩ => rfl)
    rw [e, sqdBlock_apply]
  unfold chunkMin
  rw [cast_col_apply]
  refine (multiReduction_minimumf_eq_fold (sqdBlock p0 p1 p2 B) _ reduces_S512x2048_S512 _ _ (ix1 r)).trans ?_
  rw [reduces_S512x2048_S512.fold_filter_drop_single]
  simp only [Ideal.ofBits_def, Ideal.minimumf_def, ofBits_inf]
  show (Finset.univ : Finset (Fin 2048)).fold min ⊤
      (fun j : Fin 2048 => sqdBlock p0 p1 p2 B (reduces_S512x2048_S512.lift (ix1 r) j)) = _
  rw [fold_min_top]
  exact iInf_congr key

/-- What a grid point stores for point `r` of its block: the nearest squared distance to any of the
    8 · 2048 points it loaded, clamped below at zero. -/
theorem stored_apply (x : Vec Ideal S512x3 .f32) (B : Fin 8 → Vec Ideal S3x2048 .f32) (r : Fin 512) :
    stored x (B 0) (B 1) (B 2) (B 3) (B 4) (B 5) (B 6) (B 7) (ix2 r 0)
      = max (⨅ c : Fin 8, ⨅ j : Fin 2048, sqd (fun k => x (ix2 r k)) (fun k => B c (ix2 k j))) 0 := by
  have hp : (![col0 x (ix2 r 0), col1 x (ix2 r 0), col2 x (ix2 r 0)] : Fin 3 → EReal) = fun k => x (ix2 r k) := by
    funext k
    fin_cases k
    · exact col0_apply x r
    · exact col1_apply x r
    · exact col2_apply x r
  have h : ∀ c : Fin 8, chunkMin (col0 x) (col1 x) (col2 x) (B c) (ix2 r 0)
      = ⨅ j : Fin 2048, sqd (fun k => x (ix2 r k)) (fun k => B c (ix2 k j)) := fun c => by
    rw [chunkMin_apply, hp]
  have hs : ∀ b : BitVec 32, Scalar.ofBits (F := Ideal) .f32 b = Ideal.ofBits .f32 b := fun _ => rfl
  unfold stored
  rw [maximumf_apply, minimumf_apply, minimumf_apply, minimumf_apply, minimumf_apply, minimumf_apply, minimumf_apply,
    minimumf_apply, minimumf_apply, broadcast_apply, broadcast_apply, h 0, h 1, h 2, h 3, h 4, h 5, h 6, h 7, hs, hs,
    ofBits_inf, Ideal.ofBits_zero_f32]
  exact congrArg (fun z => max z 0)
    (min8_eq_iInf (fun c => ⨅ j : Fin 2048, sqd (fun k => x (ix2 r k)) (fun k => B c (ix2 k j))))

/-! ## A whole cloud against a whole cloud -/

section Clouds
variable {F : FTy → Type} [FloatOps F]

/-- Chunk `c` of a coordinate-major cloud of 16384 points: its points 2048·c, …, 2048·c + 2047. -/
def chunk (y : Vec F S3x16384 .f32) (c : Fin 8) : Vec F S3x2048 .f32 :=
  View.ld y (Rect.unit (s := S3x16384) ![0, 2048 * c.val] ![3, 2048] (fun a => by
    match a with
    | ⟨0, _⟩ => show 0 + 3 ≤ 3; omega
    | ⟨1, _⟩ => show 2048 * c.val + 2048 ≤ 16384; have := c.isLt; omega))

theorem chunk_apply (y : Vec F S3x16384 .f32) (c : Fin 8) (k : Fin 3) (j : Fin 2048) :
    chunk y c (ix2 k j) = y (ix2 k ⟨2048 * c.val + j.val, by have := c.isLt; have := j.isLt; omega⟩) := by
  unfold chunk View.ld
  refine congrArg y (funext fun a => Fin.ext ?_)
  match a with
  | ⟨0, _⟩ => show 0 + 1 * k.val = k.val; omega
  | ⟨1, _⟩ => show 2048 * c.val + 1 * j.val = 2048 * c.val + j.val; omega

end Clouds

/-- For each of 16384 points `a`, the nearest squared distance to the 16384 points of a cloud given
    coordinate-major, clamped below at zero: what either kernel region leaves in its result column. -/
def nearCol (a : Vec Ideal S16384x3 .f32) (bt : Vec Ideal S3x16384 .f32) : Vec Ideal S16384x1 .f32 :=
  fun i => nearest (fun j : Fin 16384 => sqd (fun k => a (ix2 ⟨(i 0).val, (i 0).isLt⟩ k)) (fun k => bt (ix2 k j)))

end Cert.KernelIdeal.Body

end
-- ==== Proof.Region0.lean ====
/-
  The first kernel region read as mathematics. Its grid has 32 points; point `t` is given rows 512·t … 512·t + 511
  of the array of points (window 0), the whole coordinate-major cloud (window 1, resident: the same block at every
  point), and writes back rows 512·t … 512·t + 511 of the result column (window 2).

  What the body's one covering store leaves is `Body.stored` of the block of points and the eight chunks of the
  cloud (`out_eq`, at any float instance); at the extended reals that is, row by row, the nearest squared distance
  to any point of the cloud, clamped at zero (`outsAt_apply`: the eight chunks of 2048 points exhaust the cloud).
  Every row of the result column lies in exactly the block of point `row / 512`, so the column ends as `nearCol` of
  the two arrays the region was entered with (`final`).
-/
import proofs.«165211_j72258529788766_1_alg».proof.Proof.Gen.KernelIdeal.Frame
import proofs.«165211_j72258529788766_1_alg».proof.Proof.Body
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Region0

open Cert.KernelIdeal Cert.KernelIdeal.Gen Cert.KernelIdeal.Body Idealize.ShloMosaic.ValueIdx NearestSq

theorem hz : (![0, 0] : Fin 2 → Nat) = fun _ => 0 := funext fun a => by fin_cases a <;> rfl

section AnyFloat
variable {F : FTy → Type} [FloatOps F]

/-- What the body's one covering store leaves in the output's staging buffer: `stored` of the block of points and
    the eight chunks of the resident cloud. -/
theorem out_eq (c : Dev nD) (i : grid0.Coords) (a1 : Memref sig .tc .vmem S512x3 .f32) (h1 : a1.IsWhole)
    (a2 : Memref sig .tc .vmem S3x16384 .f32) (h2 : a2.IsWhole) (a3 : Memref sig .tc .vmem S512x1 .f32) (h3 : a3.IsWhole)
    (x0 : Vec F S512x3 .f32) (x1 : Vec F S3x16384 .f32) :
    out0_A_2 c i a1 h1 a2 h2 a3 h3 x0 x1
      = stored x0 (chunk x1 0) (chunk x1 1) (chunk x1 2) (chunk x1 3) (chunk x1 4) (chunk x1 5) (chunk x1 6) (chunk x1 7) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread, View.ld_unit_zero (S := S512x3) hz]
  rfl

end AnyFloat

/-! ## At the extended reals, over the arrays the region is entered with -/

variable (V : (c : Dev nD) → (b : Ref sig .tc) → Buf (Elt Ideal) ((c : Thread nD τ).loc b))

/-- The array of points the region reads block by block. -/
abbrev pts (c : Dev nD) : Vec Ideal S16384x3 .f32 := V c main_arg1
/-- The coordinate-major cloud the region keeps resident. -/
abbrev cloud (c : Dev nD) : Vec Ideal S3x16384 .f32 := V c main_v0
/-- The block of points at grid point `t`. -/
abbrev ptsBlk (c : Dev nD) (t : Fin cfg0.N) : Vec Ideal S512x3 .f32 := iblk0 V c 0 t
/-- The cloud's block at grid point `t`: the whole cloud. -/
abbrev cloudBlk (c : Dev nD) (t : Fin cfg0.N) : Vec Ideal S3x16384 .f32 := iblk0 V c 1 t

/-- The printed index maps over the grid: windows 0 and 2 move down the rows with the point, window 1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the block at point `t` is row 512·t + r of the array. -/
def rowOf (t : Fin cfg0.N) (r : Fin 512) : Fin 16384 :=
  ⟨512 * t.val + r.val, by have h : cfg0.N = 32 := N_0; have := t.isLt; have := r.isLt; omega⟩

theorem ptsBlk_apply (c : Dev nD) (t : Fin cfg0.N) (r : Fin 512) (k : Fin 3) :
    ptsBlk V c t (ix2 r k) = pts V c (ix2 (rowOf t r) k) := by
  obtain ⟨e0, e1, -, -, -, -⟩ := idx_facts t
  show V c main_arg1 (((cfg0.win 0).blk t).view.emb (ix2 r k)) = V c main_arg1 (ix2 (rowOf t r) k)
  refine congrArg (V c main_arg1) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 3 + 1 * k.val = k.val; rw [e1]; omega

theorem cloudBlk_apply (c : Dev nD) (t : Fin cfg0.N) (k : Fin 3) (j : Fin 16384) :
    cloudBlk V c t (ix2 k j) = cloud V c (ix2 k j) := by
  obtain ⟨-, -, e2, e3, -, -⟩ := idx_facts t
  show V c main_v0 (((cfg0.win 1).blk t).view.emb (ix2 k j)) = V c main_v0 (ix2 k j)
  refine congrArg (V c main_v0) (funext fun a => Fin.ext ?_)
  match a with
  | ⟨0, _⟩ => show win0_1.index t (0 : Fin 2) * 3 + 1 * k.val = k.val; rw [e2]; omega
  | ⟨1, _⟩ => show win0_1.index t (1 : Fin 2) * 16384 + 1 * j.val = j.val; rw [e3]; omega

/-- What the output's staging buffer holds after the body at point `t`, row by row: the nearest squared distance
    from row 512·t + r of the points to the cloud, clamped at zero. -/
theorem outsAt_apply (c : Dev nD) (t : Fin cfg0.N) (y : S512x1.Idx) :
    outsAt0 V c t y = nearCol (pts V c) (cloud V c) (ix2 (rowOf t ⟨(y 0).val, (y 0).isLt⟩) 0) := by
  obtain ⟨r, z, rfl⟩ : ∃ (r : Fin 512) (z : Fin 1), y = ix2 r z := ⟨y 0, y 1, eq_ix2 y⟩
  obtain rfl : z = 0 := Subsingleton.elim _ _
  unfold outsAt0
  rw [out_eq]
  refine (stored_apply (ptsBlk V c t) (chunk (cloudBlk V c t)) r).trans ?_
  refine Eq.trans ?_ (congrArg (fun z => max z 0) (iInf_chunks (fun j : Fin 16384 =>
    sqd (fun k => pts V c (ix2 (rowOf t r) k)) (fun k => cloud V c (ix2 k j)))))
  refine congrArg (fun z => max z 0) (iInf_congr fun cc => iInf_congr fun j => ?_)
  have ea : (fun k => ptsBlk V c t (ix2 r k)) = fun k => pts V c (ix2 (rowOf t r) k) :=
    funext fun k => ptsBlk_apply V c t r k
  have eb : (fun k => chunk (cloudBlk V c t) cc (ix2 k j))
      = fun k => cloud V c (ix2 k ⟨2048 * cc.val + j.val, by have := cc.isLt; have := j.isLt; omega⟩) :=
    funext fun k => by rw [chunk_apply, cloudBlk_apply]
  show sqd (fun k => ptsBlk V c t (ix2 r k)) (fun k => chunk (cloudBlk V c t) cc (ix2 k j)) = _
  rw [ea, eb]

/-- WHAT POINT `t` WRITES BACK is block `t` of the whole column of nearest distances. -/
theorem flushed_eq (c : Dev nD) (t : Fin cfg0.N) :
    (dat0 V c).flushed 2 t = ((cfg0.win 2).blk t).view.read (Elt Ideal) (nearCol (pts V c) (cloud V c)) := by
  obtain ⟨-, -, -, -, e4, e5⟩ := idx_facts t
  show (cfg0.win 2).cut (grid0.coords t) ((dat0 V c).after 2 t) = _
  rw [after0_2]
  funext y
  show outsAt0 V c t y = nearCol (pts V c) (cloud V c) (((cfg0.win 2).blk t).view.emb y)
  rw [outsAt_apply]
  refine congrArg (nearCol (pts V c) (cloud V c)) (funext fun a => Fin.ext ?_)
  match a with
  | ⟨0, _⟩ => show 512 * t.val + (y 0).val = win0_2.index t (0 : Fin 2) * 512 + 1 * (y 0).val; rw [e4]; omega
  | ⟨1, _⟩ => show 0 = win0_2.index t (1 : Fin 2) * 1 + 1 * (y 1).val; have : (y 1).val < 1 := (y 1).isLt; rw [e5]; omega

/-- An index of the column is in point `t`'s block iff each coordinate is in the block's range on its axis. -/
theorem mem_blk (t : Fin cfg0.N) (i : S16384x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v2).slice (win0_2.rect t)).set ↔ _
  rw [View.set_slice_whole, Rect.mem_set_unit]
  exact Iff.rfl

/-- THE RESULT COLUMN after the region: the nearest squared distance, clamped at zero, from every point to the cloud. -/
theorem final (c : Dev nD) : (dat0 V c).arrAt 2 cfg0.N = nearCol (pts V c) (cloud V c) :=
  (dat0 V c).arrAt_eq_of_cover 2 (nearCol (pts V c) (cloud V c)) (fun t _ => flushed_eq V c t) fun i => by
    have hN : cfg0.N = 32 := N_0
    have hi0 : (i 0).val < 16384 := (i 0).isLt
    have hi1 : (i 1).val < 1 := (i 1).isLt
    let t : Fin cfg0.N := ⟨(i 0).val / 512, by omega⟩
    obtain ⟨-, -, -, -, e4, e5⟩ := idx_facts t
    have ht : t.val = (i 0).val / 512 := rfl
    refine ⟨t, flush0_2 t, ?_⟩
    rw [mem_blk]
    intro a
    match a with
    | ⟨0, _⟩ => show win0_2.index t (0 : Fin 2) * 512 ≤ (i 0).val ∧ (i 0).val < win0_2.index t (0 : Fin 2) * 512 + 512; rw [e4]; omega
    | ⟨1, _⟩ => show win0_2.index t (1 : Fin 2) * 1 ≤ (i 1).val ∧ (i 1).val < win0_2.index t (1 : Fin 2) * 1 + 1; rw [e5]; omega

end Cert.KernelIdeal.Region0

end
-- ==== Proof.Region1.lean ====
/-
  The second kernel region read as mathematics. Its grid has 32 points; point `t` is given rows 512·t … 512·t + 511
  of the array of points (window 0), the whole coordinate-major cloud (window 1, resident: the same block at every
  point), and writes back rows 512·t … 512·t + 511 of the result column (window 2).

  What the body's one covering store leaves is `Body.stored` of the block of points and the eight chunks of the
  cloud (`out_eq`, at any float instance); at the extended reals that is, row by row, the nearest squared distance
  to any point of the cloud, clamped at zero (`outsAt_apply`: the eight chunks of 2048 points exhaust the cloud).
  Every row of the result column lies in exactly the block of point `row / 512`, so the column ends as `nearCol` of
  the two arrays the region was entered with (`final`).
-/
import proofs.«165211_j72258529788766_1_alg».proof.Proof.Gen.KernelIdeal.Frame
import proofs.«165211_j72258529788766_1_alg».proof.Proof.Body
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Region1

open Cert.KernelIdeal Cert.KernelIdeal.Gen Cert.KernelIdeal.Body Idealize.ShloMosaic.ValueIdx NearestSq

theorem hz : (![0, 0] : Fin 2 → Nat) = fun _ => 0 := funext fun a => by fin_cases a <;> rfl

section AnyFloat
variable {F : FTy → Type} [FloatOps F]

/-- What the body's one covering store leaves in the output's staging buffer: `stored` of the block of points and
    the eight chunks of the resident cloud. -/
theorem out_eq (c : Dev nD) (i : grid1.Coords) (a1 : Memref sig .tc .vmem S512x3 .f32) (h1 : a1.IsWhole)
    (a2 : Memref sig .tc .vmem S3x16384 .f32) (h2 : a2.IsWhole) (a3 : Memref sig .tc .vmem S512x1 .f32) (h3 : a3.IsWhole)
    (x0 : Vec F S512x3 .f32) (x1 : Vec F S3x16384 .f32) :
    out1_A_2 c i a1 h1 a2 h2 a3 h3 x0 x1
      = stored x0 (chunk x1 0) (chunk x1 1) (chunk x1 2) (chunk x1 3) (chunk x1 4) (chunk x1 5) (chunk x1 6) (chunk x1 7) := by
  unfold out1_A_2
  rw [View.read_writes_eq_canon _ _ _ (cover1_A_2 c i a1 h1 a2 h2 a3 h3 x0 x1)]
  unfold kernelRun1_A
  dsimp only
  sl_unfold_words
  rw [View.canon_unit_zero hz]
  simp only [View.readAt_eq_ld, h1.read_unread, h2.read_unread, View.ld_unit_zero (S := S512x3) hz]
  rfl

end AnyFloat

/-! ## At the extended reals, over the arrays the region is entered with -/

variable (V : (c : Dev nD) → (b : Ref sig .tc) → Buf (Elt Ideal) ((c : Thread nD τ).loc b))

/-- The array of points the region reads block by block. -/
abbrev pts (c : Dev nD) : Vec Ideal S16384x3 .f32 := V c main_arg0
/-- The coordinate-major cloud the region keeps resident. -/
abbrev cloud (c : Dev nD) : Vec Ideal S3x16384 .f32 := V c main_v1
/-- The block of points at grid point `t`. -/
abbrev ptsBlk (c : Dev nD) (t : Fin cfg1.N) : Vec Ideal S512x3 .f32 := iblk1 V c 0 t
/-- The cloud's block at grid point `t`: the whole cloud. -/
abbrev cloudBlk (c : Dev nD) (t : Fin cfg1.N) : Vec Ideal S3x16384 .f32 := iblk1 V c 1 t

/-- The printed index maps over the grid: windows 0 and 2 move down the rows with the point, window 1 stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the block at point `t` is row 512·t + r of the array. -/
def rowOf (t : Fin cfg1.N) (r : Fin 512) : Fin 16384 :=
  ⟨512 * t.val + r.val, by have h : cfg1.N = 32 := N_1; have := t.isLt; have := r.isLt; omega⟩

theorem ptsBlk_apply (c : Dev nD) (t : Fin cfg1.N) (r : Fin 512) (k : Fin 3) :
    ptsBlk V c t (ix2 r k) = pts V c (ix2 (rowOf t r) k) := by
  obtain ⟨e0, e1, -, -, -, -⟩ := idx_facts t
  show V c main_arg0 (((cfg1.win 0).blk t).view.emb (ix2 r k)) = V c main_arg0 (ix2 (rowOf t r) k)
  refine congrArg (V c main_arg0) (funext fun a => Fin.ext ?_)
  match a with
  | ⟨0, _⟩ => show win1_0.index t (0 : Fin 2) * 512 + 1 * r.val = 512 * t.val + r.val; rw [e0]; omega
  | ⟨1, _⟩ => show win1_0.index t (1 : Fin 2) * 3 + 1 * k.val = k.val; rw [e1]; omega

theorem cloudBlk_apply (c : Dev nD) (t : Fin cfg1.N) (k : Fin 3) (j : Fin 16384) :
    cloudBlk V c t (ix2 k j) = cloud V c (ix2 k j) := by
  obtain ⟨-, -, e2, e3, -, -⟩ := idx_facts t
  show V c main_v1 (((cfg1.win 1).blk t).view.emb (ix2 k j)) = V c main_v1 (ix2 k j)
  refine congrArg (V c main_v1) (funext fun a => Fin.ext ?_)
  match a with
  | ⟨0, _⟩ => show win1_1.index t (0 : Fin 2) * 3 + 1 * k.val = k.val; rw [e2]; omega
  | ⟨1, _⟩ => show win1_1.index t (1 : Fin 2) * 16384 + 1 * j.val = j.val; rw [e3]; omega

/-- What the output's staging buffer holds after the body at point `t`, row by row: the nearest squared distance
    from row 512·t + r of the points to the cloud, clamped at zero. -/
theorem outsAt_apply (c : Dev nD) (t : Fin cfg1.N) (y : S512x1.Idx) :
    outsAt1 V c t y = nearCol (pts V c) (cloud V c) (ix2 (rowOf t ⟨(y 0).val, (y 0).isLt⟩) 0) := by
  obtain ⟨r, z, rfl⟩ : ∃ (r : Fin 512) (z : Fin 1), y = ix2 r z := ⟨y 0, y 1, eq_ix2 y⟩
  obtain rfl : z = 0 := Subsingleton.elim _ _
  unfold outsAt1
  rw [out_eq]
  refine (stored_apply (ptsBlk V c t) (chunk (cloudBlk V c t)) r).trans ?_
  refine Eq.trans ?_ (congrArg (fun z => max z 0) (iInf_chunks (fun j : Fin 16384 =>
    sqd (fun k => pts V c (ix2 (rowOf t r) k)) (fun k => cloud V c (ix2 k j)))))
  refine congrArg (fun z => max z 0) (iInf_congr fun cc => iInf_congr fun j => ?_)
  have ea : (fun k => ptsBlk V c t (ix2 r k)) = fun k => pts V c (ix2 (rowOf t r) k) :=
    funext fun k => ptsBlk_apply V c t r k
  have eb : (fun k => chunk (cloudBlk V c t) cc (ix2 k j))
      = fun k => cloud V c (ix2 k ⟨2048 * cc.val + j.val, by have := cc.isLt; have := j.isLt; omega⟩) :=
    funext fun k => by rw [chunk_apply, cloudBlk_apply]
  show sqd (fun k => ptsBlk V c t (ix2 r k)) (fun k => chunk (cloudBlk V c t) cc (ix2 k j)) = _
  rw [ea, eb]

/-- WHAT POINT `t` WRITES BACK is block `t` of the whole column of nearest distances. -/
theorem flushed_eq (c : Dev nD) (t : Fin cfg1.N) :
    (dat1 V c).flushed 2 t = ((cfg1.win 2).blk t).view.read (Elt Ideal) (nearCol (pts V c) (cloud V c)) := by
  obtain ⟨-, -, -, -, e4, e5⟩ := idx_facts t
  show (cfg1.win 2).cut (grid1.coords t) ((dat1 V c).after 2 t) = _
  rw [after1_2]
  funext y
  show outsAt1 V c t y = nearCol (pts V c) (cloud V c) (((cfg1.win 2).blk t).view.emb y)
  rw [outsAt_apply]
  refine congrArg (nearCol (pts V c) (cloud V c)) (funext fun a => Fin.ext ?_)
  match a with
  | ⟨0, _⟩ => show 512 * t.val + (y 0).val = win1_2.index t (0 : Fin 2) * 512 + 1 * (y 0).val; rw [e4]; omega
  | ⟨1, _⟩ => show 0 = win1_2.index t (1 : Fin 2) * 1 + 1 * (y 1).val; have : (y 1).val < 1 := (y 1).isLt; rw [e5]; omega

/-- An index of the column is in point `t`'s block iff each coordinate is in the block's range on its axis. -/
theorem mem_blk (t : Fin cfg1.N) (i : S16384x1.Idx) :
    i ∈ ((cfg1.win 2).blk t).view.set ↔ ∀ a : Fin 2, win1_2.index t a * S512x1.size a ≤ (i a).val
      ∧ (i a).val < win1_2.index t a * S512x1.size a + S512x1.size a := by
  show i ∈ ((View.whole main_v4).slice (win1_2.rect t)).set ↔ _
  rw [View.set_slice_whole, Rect.mem_set_unit]
  exact Iff.rfl

/-- THE RESULT COLUMN after the region: the nearest squared distance, clamped at zero, from every point to the cloud. -/
theorem final (c : Dev nD) : (dat1 V c).arrAt 2 cfg1.N = nearCol (pts V c) (cloud V c) :=
  (dat1 V c).arrAt_eq_of_cover 2 (nearCol (pts V c) (cloud V c)) (fun t _ => flushed_eq V c t) fun i => by
    have hN : cfg1.N = 32 := N_1
    have hi0 : (i 0).val < 16384 := (i 0).isLt
    have hi1 : (i 1).val < 1 := (i 1).isLt
    let t : Fin cfg1.N := ⟨(i 0).val / 512, by omega⟩
    obtain ⟨-, -, -, -, e4, e5⟩ := idx_facts t
    have ht : t.val = (i 0).val / 512 := rfl
    refine ⟨t, flush1_2 t, ?_⟩
    rw [mem_blk]
    intro a
    match a with
    | ⟨0, _⟩ => show win1_2.index t (0 : Fin 2) * 512 ≤ (i 0).val ∧ (i 0).val < win1_2.index t (0 : Fin 2) * 512 + 512; rw [e4]; omega
    | ⟨1, _⟩ => show win1_2.index t (1 : Fin 2) * 1 ≤ (i 1).val ∧ (i 1).val < win1_2.index t (1 : Fin 2) * 1 + 1; rw [e5]; omega

end Cert.KernelIdeal.Region1

end
-- ==== Proof.KernelValue.lean ====
/-
  The idealized kernel's result read as mathematics: following the contents of the buffers through @main's
  five segments — two transposes; the first region; a reshape; the second region; the reshape, square roots,
  means, sum and the two scalings — the result buffer ends at `lossOf` of two vectors, each a region's result
  column flattened: `nearCol` of one argument against the other argument transposed.
-/
import proofs.«165211_j72258529788766_1_alg».proof.Proof.KernelRun
import proofs.«165211_j72258529788766_1_alg».proof.Proof.Region0
import proofs.«165211_j72258529788766_1_alg».proof.Proof.Region1
import Idealize.ShloMosaic.Lib.StableHlo.Run
import Idealize.ShloMosaic.Lib.ValueLayout

set_option maxRecDepth 16384

noncomputable section

open Idealize.ShloMosaic Idealize.ShloMosaic.TcCoe Idealize.ShloMosaic.Tactic Idealize.SL.Sem Idealize.ShloMosaic.StableHlo

namespace Cert.KernelIdeal.Result

open Cert.KernelIdeal Cert.KernelIdeal.Gen Cert.KernelIdeal.Body Idealize.ShloMosaic.ValueIdx NearestSq

/-- A cloud of points, coordinate-major. -/
def transposed (x : Vec Ideal S16384x3 .f32) : Vec Ideal S3x16384 .f32 :=
  transpose S3x16384 [1, 0] x transposes_S16384x3_S3x16384_1_0

theorem transposed_apply (x : Vec Ideal S16384x3 .f32) (k : Fin 3) (j : Fin 16384) :
    transposed x (ix2 k j) = x (ix2 j k) :=
  transpose_ix2_apply x transposes_S16384x3_S3x16384_1_0 k j

/-- A result column as a vector. -/
def flat (col : Vec Ideal S16384x1 .f32) : FVec Ideal S16384 .f32 :=
  shapeCast S16384 col shapeCasts_S16384x1_S16384

theorem flat_apply (col : Vec Ideal S16384x1 .f32) (r : Fin 16384) : flat col (ix1 r) = col (ix2 r 0) :=
  shapeCast_apply col _ (ix1 r) (ix2 r 0) (by
    rw [Shape.rowMajor_val_one, Shape.rowMajor_val_two]
    show r.val * 1 + 0 = r.val
    omega)

variable (m : (ℓ : Loc nD τ sig) → Buf (Elt Ideal) ℓ) (ρ : Dev nD → PrngReg)

/-- The two argument arrays as launched. -/
abbrev arg0 (c : Dev nD) : Vec Ideal S16384x3 .f32 := m ((c : Thread nD τ).loc main_arg0)
abbrev arg1 (c : Dev nD) : Vec Ideal S16384x3 .f32 := m ((c : Thread nD τ).loc main_arg1)

/-! ## The first region's entry and exit -/

theorem V1_arg1 (c : Dev nD) : V1 m ρ c main_arg1 = arg1 m c := by
  show StableHlo.after hostOps0 (W0 m ρ c) (Proc.devRef .tc main_arg1) = _
  after_results

theorem V1_v0 (c : Dev nD) : V1 m ρ c main_v0 = transposed (arg0 m c) := by
  show StableHlo.after hostOps0 (W0 m ρ c) (Proc.devRef .tc main_v0) = _
  after_results
  rfl

theorem V1_v1 (c : Dev nD) : V1 m ρ c main_v1 = transposed (arg1 m c) := by
  show StableHlo.after hostOps0 (W0 m ρ c) (Proc.devRef .tc main_v1) = _
  after_results
  rfl

theorem V1_arg0 (c : Dev nD) : V1 m ρ c main_arg0 = arg0 m c := by
  show StableHlo.after hostOps0 (W0 m ρ c) (Proc.devRef .tc main_arg0) = _
  after_results

/-- The first region leaves, in its result column, the nearest distances from the second argument's points to the first's. -/
theorem W2_v2 (c : Dev nD) :
    W2 m ρ c (Proc.devRef .tc main_v2) = nearCol (arg1 m c) (transposed (arg0 m c)) := by
  refine (W2_arr m ρ c 2).trans ((Region0.final (V1 m ρ) c).trans ?_)
  show nearCol (V1 m ρ c main_arg1) (V1 m ρ c main_v0) = _
  rw [V1_arg1, V1_v0]

/-! ## The second region's entry and exit -/

theorem V3_v3 (c : Dev nD) : V3 m ρ c main_v3 = flat (W2 m ρ c (Proc.devRef .tc main_v2)) := by
  show StableHlo.after hostOps1 (W2 m ρ c) (Proc.devRef .tc main_v3) = _
  after_results
  rfl

theorem V3_arg0 (c : Dev nD) : V3 m ρ c main_arg0 = arg0 m c := by
  have h : V3 m ρ c main_arg0 = W2 m ρ c (Proc.devRef .tc main_arg0) := by
    show StableHlo.after hostOps1 (W2 m ρ c) (Proc.devRef .tc main_arg0) = _
    after_results
  rw [h, W2_of_ne m ρ c main_arg0 (by decide)]
  exact V1_arg0 m ρ c

theorem V3_v1 (c : Dev nD) : V3 m ρ c main_v1 = transposed (arg1 m c) := by
  have h : V3 m ρ c main_v1 = W2 m ρ c (Proc.devRef .tc main_v1) := by
    show StableHlo.after hostOps1 (W2 m ρ c) (Proc.devRef .tc main_v1) = _
    after_results
  rw [h, W2_of_ne m ρ c main_v1 (by decide)]
  exact V1_v1 m ρ c

/-- The second region leaves, in its result column, the nearest distances from the first argument's points to the second's. -/
theorem W4_v4 (c : Dev nD) :
    W4 m ρ c (Proc.devRef .tc main_v4) = nearCol (arg0 m c) (transposed (arg1 m c)) := by
  refine (W4_arr m ρ c 2).trans ((Region1.final (V3 m ρ) c).trans ?_)
  show nearCol (V3 m ρ c main_arg0) (V3 m ρ c main_v1) = _
  rw [V3_arg0, V3_v1]

/-- The first region's flattened column passes the second region untouched. -/
theorem W4_v3 (c : Dev nD) :
    W4 m ρ c (Proc.devRef .tc main_v3) = flat (nearCol (arg1 m c) (transposed (arg0 m c))) := by
  rw [W4_of_ne m ρ c main_v3 (by decide)]
  show V3 m ρ c main_v3 = _
  rw [V3_v3, W2_v2]

/-! ## The result -/

/-- The two distance vectors of the kernel's program. -/
def dist1 (c : Dev nD) : FVec Ideal S16384 .f32 := flat (nearCol (arg1 m c) (transposed (arg0 m c)))
def dist2 (c : Dev nD) : FVec Ideal S16384 .f32 := flat (nearCol (arg0 m c) (transposed (arg1 m c)))

/-- The result buffer ends at the shared loss of the two distance vectors. -/
theorem W5_v14 (c : Dev nD) :
    W5 m ρ c (Proc.devRef .tc main_v14) = lossOf reducesTo_S16384_S_d0 h_S_ (dist1 m c) (dist2 m c) := by
  have e : W5 m ρ c (Proc.devRef .tc main_v14)
      = lossOf reducesTo_S16384_S_d0 h_S_ (W4 m ρ c (Proc.devRef .tc main_v3)) (flat (W4 m ρ c (Proc.devRef .tc main_v4))) := by
    show StableHlo.after hostOps2 (W4 m ρ c) (Proc.devRef .tc main_v14) = _
    after_results
    rfl
  rw [e, W4_v3, W4_v4]
  rfl

/-- The idealized kernel's run: it ends with the result at that loss and the arguments unchanged. -/
theorem run : θ_run defs (onTc (τ := τ) (main (F := Ideal))) ⟨m, fun _ => 0, ρ⟩ (fun r => ∀ c : Dev nD,
      r.2.mem ((c.tc : Thread nD τ).loc main_v14) = lossOf reducesTo_S16384_S_d0 h_S_ (dist1 m c) (dist2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (W5_v14 m ρ c), (h c).2⟩) (RunNamed.run_named m ρ)

end Cert.KernelIdeal.Result

end
-- ==== Proof.RefValue.lean ====
/-
  The reference read as mathematics: each of its two vectors of clamped nearest squared distances, row by
  row, is `nearest` of the expanded squared distances (|a|² + |b|²) - 2·⟨a, b⟩ to every point of the other
  cloud, and its result is `lossOf` of the two vectors.
-/
import proofs.«165211_j72258529788766_1_alg».proof.Proof.Gen.ReferenceIdeal.Read
import proofs.«165211_j72258529788766_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx NearestSq

/-- Point `r` of a cloud: its three coordinates. -/
abbrev pt (x : FVec Ideal S16384x3 .f32) (r : Fin 16384) : Fin 3 → EReal := fun k => x (ix2 r k)

/-- A fold of the ideal minimum from ⊤ over a whole finite index type is the infimum. -/
private theorem fold_minimumf_top {n : Nat} (f : Fin n → EReal) :
    (Finset.univ : Finset (Fin n)).fold (FloatOps.minimumf (F := Ideal) (φ := .f32)) (⊤ : EReal) f = ⨅ j, f j :=
  fold_min_top f

/-- The first distance vector: from each point of the second argument to the nearest point of the first. -/
theorem dist1_apply (x0 x1 : FVec Ideal S16384x3 .f32) (r : Fin 16384) :
    val_main_v16 (F := Ideal) x0 x1 (ix1 r) = nearest (fun j : Fin 16384 => expd (pt x1 r) (pt x0 j)) := by
  rw [val_main_v16_apply, val_main_v15_apply, val_main_cst_3_apply]
  unfold val_main_v14
  have hR : S16384x16384.Reduces [1] S16384 := by decide
  have e := Host.reduce_eq_fold_single (α := Ideal .f32) FloatOps.minimumf (val_main_v13 (F := Ideal) x0 x1)
    (val_main_cst_2 (F := Ideal)) reducesTo_S16384x16384_S16384_d1 hR h_S_ (ix1 r)
  rw [e]
  rw [val_main_cst_2_apply, Ideal.maximumf_def, Ideal.ofBits_def, Ideal.ofBits_def, Ideal.ofBits_zero_f32, ofBits_inf]
  rw [fold_minimumf_top]
  unfold nearest
  show max (⨅ j : Fin 16384, val_main_v13 (F := Ideal) x0 x1 (hR.lift (ix1 r) j)) (0 : EReal) = _
  refine congrArg (fun t => max t (0 : EReal)) (iInf_congr fun (j : Fin 16384) => ?_)
  -- the index over row r with coordinate j on the reduced axis is (r, j)
  have hl : hR.lift (ix1 r) j = ix2 r j := funext fun a => Fin.ext (by match a with | ⟨0, _⟩ => rfl | ⟨1, _⟩ => rfl)
  rw [hl]
  rw [val_main_v13_apply, val_main_v10_apply, val_main_v8_apply, val_main_v9_apply, val_main_v6_apply, val_main_v7_apply,
    val_main_v1_apply, val_main_v3_apply, val_main_v12_apply, val_main_v11_apply, val_main_cst_1_apply, val_main_v5_apply]
  -- every operand is read at (r, k) of the second cloud or (j, k) of the first
  have i1 : ∀ k : Fin 3, idx_main_v1 (idx_main_v6 (idx_main_v8 (ix2 r j))) k = ix2 r k := fun k =>
    funext fun a => Fin.ext (by match a with | ⟨0, _⟩ => rfl | ⟨1, _⟩ => rfl)
  have i3 : ∀ k : Fin 3, idx_main_v3 (idx_main_v7 (idx_main_v9 (ix2 r j))) k = ix2 j k := fun k =>
    funext fun a => Fin.ext (by match a with | ⟨0, _⟩ => rfl | ⟨1, _⟩ => rfl)
  have i5l : ∀ k : Fin 3, lidx_main_v5 (ix2 r j) k = ix2 r k := fun k =>
    funext fun a => Fin.ext (by match a with | ⟨0, _⟩ => rfl | ⟨1, _⟩ => rfl)
  have i5r : ∀ k : Fin 3, idx_main_v4 (ridx_main_v5 (ix2 r j) k) = ix2 j k := fun k =>
    funext fun a => Fin.ext (by match a with | ⟨0, _⟩ => rfl | ⟨1, _⟩ => rfl)
  simp only [val_main_v4_apply, val_main_v0_apply, val_main_v2_apply, val_main_cst_apply, val_main_cst_0_apply,
    i1, i3, i5l, i5r, Ideal.ofBits_def, Ideal.ofBits_zero_f32, ofBits_two, Ideal.subf_def, Ideal.addf_def, Ideal.mulf_def]
  rfl

/-- The second distance vector: from each point of the first argument to the nearest point of the second. -/
theorem dist2_apply (x0 x1 : FVec Ideal S16384x3 .f32) (r : Fin 16384) :
    val_main_v33 (F := Ideal) x0 x1 (ix1 r) = nearest (fun j : Fin 16384 => expd (pt x0 r) (pt x1 j)) := by
  rw [val_main_v33_apply, val_main_v32_apply, val_main_cst_8_apply]
  unfold val_main_v31
  have hR : S16384x16384.Reduces [1] S16384 := by decide
  have e := Host.reduce_eq_fold_single (α := Ideal .f32) FloatOps.minimumf (val_main_v30 (F := Ideal) x0 x1)
    (val_main_cst_7 (F := Ideal)) reducesTo_S16384x16384_S16384_d1 hR h_S_ (ix1 r)
  rw [e]
  rw [val_main_cst_7_apply, Ideal.maximumf_def, Ideal.ofBits_def, Ideal.ofBits_def, Ideal.ofBits_zero_f32, ofBits_inf]
  rw [fold_minimumf_top]
  unfold nearest
  show max (⨅ j : Fin 16384, val_main_v30 (F := Ideal) x0 x1 (hR.lift (ix1 r) j)) (0 : EReal) = _
  refine congrArg (fun t => max t (0 : EReal)) (iInf_congr fun (j : Fin 16384) => ?_)
  have hl : hR.lift (ix1 r) j = ix2 r j := funext fun a => Fin.ext (by match a with | ⟨0, _⟩ => rfl | ⟨1, _⟩ => rfl)
  rw [hl]
  rw [val_main_v30_apply, val_main_v27_apply, val_main_v25_apply, val_main_v26_apply, val_main_v23_apply, val_main_v24_apply,
    val_main_v18_apply, val_main_v20_apply, val_main_v29_apply, val_main_v28_apply, val_main_cst_6_apply, val_main_v22_apply]
  -- every operand is read at (r, k) of the first cloud or (j, k) of the second
  have i1 : ∀ k : Fin 3, idx_main_v18 (idx_main_v23 (idx_main_v25 (ix2 r j))) k = ix2 r k := fun k =>
    funext fun a => Fin.ext (by match a with | ⟨0, _⟩ => rfl | ⟨1, _⟩ => rfl)
  have i3 : ∀ k : Fin 3, idx_main_v20 (idx_main_v24 (idx_main_v26 (ix2 r j))) k = ix2 j k := fun k =>
    funext fun a => Fin.ext (by match a with | ⟨0, _⟩ => rfl | ⟨1, _⟩ => rfl)
  have i5l : ∀ k : Fin 3, lidx_main_v22 (ix2 r j) k = ix2 r k := fun k =>
    funext fun a => Fin.ext (by match a with | ⟨0, _⟩ => rfl | ⟨1, _⟩ => rfl)
  have i5r : ∀ k : Fin 3, idx_main_v21 (ridx_main_v22 (ix2 r j) k) = ix2 j k := fun k =>
    funext fun a => Fin.ext (by match a with | ⟨0, _⟩ => rfl | ⟨1, _⟩ => rfl)
  simp only [val_main_v21_apply, val_main_v17_apply, val_main_v19_apply, val_main_cst_4_apply, val_main_cst_5_apply,
    i1, i3, i5l, i5r, Ideal.ofBits_def, Ideal.ofBits_zero_f32, ofBits_two, Ideal.subf_def, Ideal.addf_def, Ideal.mulf_def]
  rfl

/-- The reference's result is the shared loss of its two distance vectors. -/
theorem result_eq (x0 x1 : FVec Ideal S16384x3 .f32) :
    val_main_v42 (F := Ideal) x0 x1
      = lossOf reducesTo_S16384_S_d0 h_S_ (val_main_v16 (F := Ideal) x0 x1) (val_main_v33 (F := Ideal) x0 x1) := rfl

end Cert.ReferenceIdeal.RefValue

end
-- ==== Proof.Bridge.lean ====
/-
  The two programs' distance vectors are the same when every coordinate of both clouds is a real number.
  Row by row, the kernel's vector is the nearest — over the points of the other cloud, read through its
  transpose — sum of three squared differences, clamped at zero; the reference's is the nearest expanded
  form (|a|² + |b|²) - 2·⟨a, b⟩, clamped at zero. On reals the two distances agree (`expd_eq_sqd`), so do
  their infima and the clamped values.
-/
import proofs.«165211_j72258529788766_1_alg».proof.Proof.KernelValue
import proofs.«165211_j72258529788766_1_alg».proof.Proof.RefValue

noncomputable section

namespace Cert.Proof.Bridge

open Idealize.ShloMosaic Idealize.ShloMosaic.ValueIdx NearestSq
open Cert.KernelIdeal.Body Cert.KernelIdeal.Result Cert.ReferenceIdeal.RefValue

/-- From every point of `a` to the nearest point of `b`: the kernel's column, flattened, is the reference's vector. -/
theorem near_eq (a b : FVec Ideal Cert.KernelIdeal.S16384x3 .f32)
    (ha : ∀ i, ∃ r : ℝ, a i = (r : EReal)) (hb : ∀ i, ∃ r : ℝ, b i = (r : EReal)) (r : Fin 16384) :
    flat (nearCol a (transposed b)) (ix1 r) = nearest (fun j : Fin 16384 => expd (pt a r) (pt b j)) := by
  choose ra hra using ha
  choose rb hrb using hb
  rw [flat_apply]
  show nearest (fun j : Fin 16384 => sqd (fun k => a (ix2 r k)) (fun k => transposed b (ix2 k j))) = _
  refine congrArg nearest (funext fun j => ?_)
  have ea : (fun k : Fin 3 => a (ix2 r k)) = fun k => ((ra (ix2 r k) : ℝ) : EReal) := funext fun k => hra _
  have eb : (fun k : Fin 3 => transposed b (ix2 k j)) = fun k => ((rb (ix2 j k) : ℝ) : EReal) :=
    funext fun k => by rw [transposed_apply]; exact hrb _
  have eb' : pt b j = fun k => ((rb (ix2 j k) : ℝ) : EReal) := funext fun k => hrb _
  show sqd (fun k : Fin 3 => a (ix2 r k)) (fun k : Fin 3 => transposed b (ix2 k j)) = expd (fun k => a (ix2 r k)) (pt b j)
  rw [ea, eb, eb']
  exact (expd_eq_sqd _ _).symm

/-- The first distance vectors agree. -/
theorem dist1_eq (x0 x1 : FVec Ideal Cert.KernelIdeal.S16384x3 .f32)
    (h0 : ∀ i, ∃ r : ℝ, x0 i = (r : EReal)) (h1 : ∀ i, ∃ r : ℝ, x1 i = (r : EReal)) :
    flat (nearCol x1 (transposed x0)) = Cert.ReferenceIdeal.Read.val_main_v16 (F := Ideal) x0 x1 := by
  funext i
  obtain ⟨r, rfl⟩ : ∃ r : Fin 16384, i = ix1 r := ⟨i 0, eq_ix1 i⟩
  rw [dist1_apply]
  exact near_eq x1 x0 h1 h0 r

/-- The second distance vectors agree. -/
theorem dist2_eq (x0 x1 : FVec Ideal Cert.KernelIdeal.S16384x3 .f32)
    (h0 : ∀ i, ∃ r : ℝ, x0 i = (r : EReal)) (h1 : ∀ i, ∃ r : ℝ, x1 i = (r : EReal)) :
    flat (nearCol x0 (transposed x1)) = Cert.ReferenceIdeal.Read.val_main_v33 (F := Ideal) x0 x1 := by
  funext i
  obtain ⟨r, rfl⟩ : ∃ r : Fin 16384, i = ix1 r := ⟨i 0, eq_ix1 i⟩
  rw [dist2_apply]
  exact near_eq x0 x1 h0 h1 r

end Cert.Proof.Bridge

end
-- ==== Proof.Finite.lean ====
/-
  The precondition read as mathematics: when `finite_inputs` is all ones, every coordinate of both clouds
  is a real number (neither ⊤ nor ⊥).
-/
import proofs.«165211_j72258529788766_1_alg».proof.Pre_finite_inputs
import proofs.«165211_j72258529788766_1_alg».proof.Proof.Spec
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- The scalar shape has one index. -/
private instance : Subsingleton S_.Idx := ⟨fun a b => funext fun d => d.elim0⟩

/-- An extended real whose absolute value max x (-x) is strictly below ⊤ is a real number: at ⊥ and at ⊤ the
    absolute value is ⊤ itself. -/
private theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition every coordinate of both arguments is real. -/
theorem real_of_pre (x0 x1 : FVec Ideal S16384x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  -- the conjunction of the two reductions by `and` is 1, so each is; each then has a 1 at every index
  obtain ⟨ha, hb⟩ := IntOp.andi_eq_one.mp h0
  have e0 := fun i => Host.reduce_andi_all _ _ _ _ _ ha i
  have e1 := fun i => Host.reduce_andi_all _ _ _ _ _ hb i
  -- the broadcast constant is the word of +∞, which is ⊤
  have top_eq : Ideal.ofBits .f32 0x7F800000#32 = (⊤ : EReal) := NearestSq.ofBits_inf
  refine ⟨fun i => real_of_abs_lt_top (x0 i) ?_, fun i => real_of_abs_lt_top (x1 i) ?_⟩
  · rw [← top_eq]; exact e0 i
  · rw [← top_eq]; exact e1 i

end Cert.Pre_finite_inputs.Finite

end
-- ==== Proof.lean ====
/-
  The certificate: a two-sided nearest-neighbour (Chamfer) loss between two clouds of 16384 points in ℝ³,

      loss = 10 · ½ · ( mean_i √d₁(i) + mean_i √d₂(i) ),   d(i) = max(min_j ‖aᵢ - bⱼ‖², 0),

  computed by a kernel that, for blocks of 512 points, keeps a running minimum over eight chunks of 2048
  points of ((a₀-b₀)² + (a₁-b₁)²) + (a₂-b₂)², against a reference that expands the square,
  (|a|² + |b|²) - 2⟨a, b⟩, takes one minimum over all 16384 points and clamps at zero.

  Over the extended reals the two agree when the inputs are finite: on reals the expansion is the sum of
  squared differences, a running minimum from +∞ over chunks is the minimum over all points, and what both
  programs do with the two distance vectors afterwards is the same function (`NearestSq.lossOf`). At an
  infinite coordinate the two distances differ (∞ - ∞), so the precondition is used.

  The three frames: the two kernel programs' are the generated frame certificates; the reference, a host
  program, runs by its generated run. No operation was rewritten by idealization, so there is nothing to
  preserve.
-/
import proofs.«165211_j72258529788766_1_alg».proof.Defs
import proofs.«165211_j72258529788766_1_alg».proof.Proof.Gen.Kernel
import proofs.«165211_j72258529788766_1_alg».proof.Proof.Gen.Kernel.Frame
import proofs.«165211_j72258529788766_1_alg».proof.Proof.Gen.KernelIdeal
import proofs.«165211_j72258529788766_1_alg».proof.Proof.Gen.KernelIdeal.Frame
import proofs.«165211_j72258529788766_1_alg».proof.Proof.Gen.ReferenceIdeal
import proofs.«165211_j72258529788766_1_alg».proof.Proof.Gen.ReferenceIdeal.Run
import proofs.«165211_j72258529788766_1_alg».proof.Proof.Gen.ReferenceIdeal.Read
import proofs.«165211_j72258529788766_1_alg».proof.Proof.Gen.Pre_finite_inputs
import proofs.«165211_j72258529788766_1_alg».proof.Proof.Bridge
import proofs.«165211_j72258529788766_1_alg».proof.Proof.Finite
import Idealize.ShloMosaic.Adequacy
import Idealize.ShloMosaic.Init

noncomputable section

namespace Cert.Proof

open Idealize.ShloMosaic Idealize.SL.Sem NearestSq

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the shared loss of the same two distance vectors: the kernel's by its run read
    through @main, the reference's by its run read one operation at a time; the vectors agree because, under the
    precondition, every coordinate is real. -/
theorem algebraic : Cert.algebraic_KernelIdeal_ReferenceIdeal := by
  intro m ρ m' ρ' hpre hagree
  refine ⟨fun c => lossOf Cert.KernelIdeal.Facts₀.reducesTo_S16384_S_d0 Cert.KernelIdeal.Facts₀.h_S_
    (Cert.KernelIdeal.Result.dist1 m c) (Cert.KernelIdeal.Result.dist2 m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Finite.real_of_pre _ _ (hpre c)
  rw [Cert.ReferenceIdeal.Read.val_main_v42_eq, Cert.ReferenceIdeal.RefValue.result_eq, (hagree c).1, (hagree c).2,
    ← Cert.Proof.Bridge.dist1_eq _ _ h0 h1, ← Cert.Proof.Bridge.dist2_eq _ _ h0 h1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
